-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S384x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x128 .f32) (main_arg1 : IVec S2x640000 32) (main_arg2 : FVec F S640000x128 .f32) (main_arg3 : FVec F S256x128 .f32) (main_arg4 : FVec F S128 .f32) (main_arg5 : FVec F S128x128 .f32) (main_arg6 : FVec F S128 .f32) (main_arg7 : FVec F S384x128 .f32) (main_arg8 : FVec F S128 .f32) (main_arg9 : FVec F S128x128 .f32) (main_arg10 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S10000x128 : Shape := ⟨2, ![10000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S2560x128 : Shape := ⟨2, ![2560, 128]⟩
abbrev S2560x384 : Shape := ⟨2, ![2560, 384]⟩
abbrev S2560x256 : Shape := ⟨2, ![2560, 256]⟩

abbrev nBuf : Space → Nat
  | .hbm => 47
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S384x128, .bf16⟩
  | .hbm, ⟨34, _⟩ => ⟨S128x128, .bf16⟩
  | .hbm, ⟨35, _⟩ => ⟨S256x128, .bf16⟩
  | .hbm, ⟨36, _⟩ => ⟨S128x128, .bf16⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S10000x128, .f32⟩
  | .hbm, ⟨45, _⟩ => ⟨S640000x1, .i32⟩
  | .hbm, ⟨46, _⟩ => ⟨S10000x128, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S384x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S256x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S2560x128, .f32⟩
  | .local _ .vmem, ⟨15, _⟩ => ⟨S2560x128, .f32⟩
  | .local _ .vmem, ⟨16, _⟩ => ⟨S2560x128, .f32⟩
  | .local _ .vmem, ⟨17, _⟩ => ⟨S2560x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2560x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2560x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bitsLt_bf16_f32 : FTy.bits .bf16 < FTy.bits .f32
  shapeCasts_S128_S1x128 : S128.ShapeCasts S1x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  concatenates_S2560x128_S2560x128_S2560x128_S2560x384_d1 : Shape.Concatenates [S2560x128, S2560x128, S2560x128] S2560x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S2560x128_S2560x128_S2560x256_d1 : Shape.Concatenates [S2560x128, S2560x128] S2560x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S2560x384_S384x128_S2560x128_1_0_0_1_n_n_wf : DotDims.WF S2560x384 S384x128 S2560x128 [1] [0] [0] [1] [] []
  dot_S2560x128_S128x128_S2560x128_1_0_0_1_n_n_wf : DotDims.WF S2560x128 S128x128 S2560x128 [1] [0] [0] [1] [] []
  dot_S2560x256_S256x128_S2560x128_1_0_0_1_n_n_wf : DotDims.WF S2560x256 S256x128 S2560x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .f32 = 32 ∨ (Rect.block (s := S640000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .f32 = 32 ∨ (Rect.block (s := S640000x128) S2560x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .f32 = 32 ∨ (Rect.block (s := S640000x128) S2560x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2560x128.size a ≤ S640000x128.size a
  hwx0_11 : ∀ i : grid0.Coords, EltTy.bits .f32 = 32 ∨ (Rect.block (s := S640000x128) S2560x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2560x128.size a ≤ S640000x128.size a
  hwx0_12 : ∀ i : grid0.Coords, EltTy.bits .f32 = 32 ∨ (Rect.block (s := S640000x128) S2560x128.size (cc0_transform_12 i) (hinb0_12 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S2560x384_S384x128_S2560x128_1_0_0_1_n_n : DotDims S2560x384 S384x128 S2560x128 where
  lhsContracting := [1]
  rhsContracting := [0]
  lhsNonContracting := [0]
  rhsNonContracting := [1]
  lhsBatch := []
  rhsBatch := []
  wf := dot_S2560x384_S384x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S2560x256_S256x128_S2560x128_1_0_0_1_n_n : DotDims S2560x256 S256x128 S2560x128 where
  lhsContracting := [1]
  rhsContracting := [0]
  lhsNonContracting := [0]
  rhsNonContracting := [1]
  lhsBatch := []
  rhsBatch := []
  wf := dot_S2560x256_S256x128_S2560x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_v10) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26_0) S2560x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v26_1) S2560x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S640000x256 : Shape := ⟨2, ![640000, 256]⟩

abbrev nBuf : Space → Nat
  | .hbm => 83
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x384, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .i1⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S640000x128, .f32⟩
  | .hbm, ⟨53, _⟩ => ⟨S1x128, .f32⟩
  | .hbm, ⟨54, _⟩ => ⟨S640000x128, .f32⟩
  | .hbm, ⟨55, _⟩ => ⟨S640000x128, .f32⟩
  | .hbm, ⟨56, _⟩ => ⟨S640000x256, .f32⟩
  | .hbm, ⟨57, _⟩ => ⟨S640000x128, .f32⟩
  | .hbm, ⟨58, _⟩ => ⟨S1x128, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S640000x128, .f32⟩
  | .hbm, ⟨63, _⟩ => ⟨S640000x128, .f32⟩
  | .hbm, ⟨64, _⟩ => ⟨S640000x128, .f32⟩
  | .hbm, ⟨65, _⟩ => ⟨S640000x128, .f32⟩
  | .hbm, ⟨66, _⟩ => ⟨S640000x128, .i1⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S640000x128, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S1x128, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S10000x128, .f32⟩
  | .hbm, ⟨81, _⟩ => ⟨S640000x1, .i32⟩
  | .hbm, ⟨82, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  concatenates_S640000x128_S640000x128_S640000x256_d1 : Shape.Concatenates [S640000x128, S640000x128] S640000x256 1
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  dot_S640000x256_S256x128_S640000x128_1_0_0_1_n_n_wf : DotDims.WF S640000x256 S256x128 S640000x128 [1] [0] [0] [1] [] []
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.LibHostLine.lean ====
/-
  A line of host operations: a concatenation of three arrays in it, and a line cut in two.

  What the buffers hold after a line of host operations is computed operation by operation.  For an operation over a
  family of references the general statement reads the operands under a binder, where no further step applies; the
  library restates it for a literal family of four.  This file does the same for a literal family of three: the
  operation's result is its function of the three operands' contents, each at its own reference.  It also states that
  running a line cut in two is running the first part and then the second from what the first left.
-/
import Idealize.ShloMosaic.Lib.StableHlo.Run

noncomputable section

namespace Idealize.ShloMosaic.StableHlo

variable {τ : Topo} {sig : RefSig} {Val : EltTy → Type}

/-- The contents after two lines in a row: the second line run from what the first left. -/
theorem after_append_line : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append_line l₁ l₂]

variable {x a b y : Ref sig .tc}

/-- A host operation over a LITERAL family of three references (a concatenation of three operands): its result with
    each operand's contents AT ITS OWN REFERENCE, so that the operands' contents can be rewritten further. Under the
    binder of the general statement the reference `![x, a, b] k` is no literal and nothing applies to it. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a one-pass simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The contents after a line of host operations in one simplification pass, a three-operand operation read operand
    by operand. -/
macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.LibSoftplus.lean ====
/-
  The softplus function on the extended reals, and its two array spellings read at an index.

  Both programs compute softplus in the overflow-safe form
      softplus x = max x 0 + log (1 + exp (-|x|)),
  guarded by a test "x - 0 differs from itself" that selects `x + 0` instead.  On the extended reals every
  value equals itself, so the guard never fires and the guarded expression is the safe form.  The two spellings
  differ only in how they negate the absolute value (`0 - |d|` against `-|d|`) and in how the zero is made
  (a splat of the zero word against a broadcast of a scalar constant); both are the same extended real.
-/
import Idealize.ShloMosaic.Lib.ValueIdx
import Idealize.ShloMosaic.PureOps.Ideal.Laws

noncomputable section

namespace EdgeNet

open Idealize.ShloMosaic

/-- softplus in the overflow-safe form, `|x|` written as `max x (-x)`. -/
def softplus (x : EReal) : EReal :=
  max x 0 + Ideal.log1p (Ideal.exp (-(max x (-x))))

/-- A value never differs from itself, under either reading of "not equal". -/
theorem cmp_one_self (d : EReal) : Ideal.cmp .one d d = 0#1 := by simp [Ideal.cmp]
theorem cmp_une_self (d : EReal) : Ideal.cmp .une d d = 0#1 := by simp [Ideal.cmp]

/-- The guarded expression with the guard cleared, in the spelling that subtracts the absolute value from zero. -/
theorem softplus_sub (x : EReal) :
    max x (Ideal.ofBits .f32 0x00000000#32)
        + Ideal.log1p (Ideal.exp (Ideal.ofBits .f32 0x00000000#32
            - max (x - Ideal.ofBits .f32 0x00000000#32) (-(x - Ideal.ofBits .f32 0x00000000#32))))
      = softplus x := by
  unfold softplus
  rw [Ideal.ofBits_zero_f32, sub_zero, zero_sub]

/-- The same with the absolute value negated outright. -/
theorem softplus_neg (x : EReal) :
    max x (Ideal.ofBits .f32 0x00000000#32)
        + Ideal.log1p (Ideal.exp (-(max (x - Ideal.ofBits .f32 0x00000000#32) (-(x - Ideal.ofBits .f32 0x00000000#32)))))
      = softplus x := by
  unfold softplus
  rw [Ideal.ofBits_zero_f32, sub_zero]

/-- A kernel's softplus of an array, at an index: the zero a splat of the zero word, the negation `0 - |d|`. -/
theorem softplus_kernel_apply {s : Shape} (v : FVec Ideal s .f32) (i : s.Idx) :
    select
        (cmpf .one (subf v (broadcast s (Scalar.ofBits (F := Ideal) .f32 0x00000000#32)))
          (subf v (broadcast s (Scalar.ofBits (F := Ideal) .f32 0x00000000#32))))
        (addf v (broadcast s (Scalar.ofBits (F := Ideal) .f32 0x00000000#32)))
        (addf (maximumf v (broadcast s (Scalar.ofBits (F := Ideal) .f32 0x00000000#32)))
          (log1p (exp (subf (broadcast s (Scalar.ofBits (F := Ideal) .f32 0x00000000#32))
            (absf (subf v (broadcast s (Scalar.ofBits (F := Ideal) .f32 0x00000000#32))))))))
        i
      = softplus (v i) := by
  show Scalar.select (Ideal.cmp .one (v i - Ideal.ofBits .f32 0x00000000#32) (v i - Ideal.ofBits .f32 0x00000000#32)) _ _ = _
  rw [cmp_one_self]
  exact softplus_sub (v i)

/-- The host's softplus of an array, at an index: the zero a scalar constant broadcast, the negation `-|d|`. -/
theorem softplus_host_apply {s : Shape} (v : FVec Ideal s .f32) (d0 : Fin 0 → Fin s.rank)
    (hb : (⟨0, ![]⟩ : Shape).BroadcastsInDim s d0) (i : s.Idx) :
    select
        (cmpf .une (subf v (broadcastInDim s d0 hb (constant (F := Ideal) ⟨0, ![]⟩ .f32 0x00000000#32)))
          (subf v (broadcastInDim s d0 hb (constant (F := Ideal) ⟨0, ![]⟩ .f32 0x00000000#32))))
        (addf v (broadcastInDim s d0 hb (constant (F := Ideal) ⟨0, ![]⟩ .f32 0x00000000#32)))
        (addf (maximumf v (broadcastInDim s d0 hb (constant (F := Ideal) ⟨0, ![]⟩ .f32 0x00000000#32)))
          (Host.log1p (Host.exp (Host.negf (Host.absf
            (subf v (broadcastInDim s d0 hb (constant (F := Ideal) ⟨0, ![]⟩ .f32 0x00000000#32))))))))
        i
      = softplus (v i) := by
  show Scalar.select (Ideal.cmp .une (v i - Ideal.ofBits .f32 0x00000000#32) (v i - Ideal.ofBits .f32 0x00000000#32)) _ _ = _
  rw [cmp_une_self]
  exact softplus_neg (v i)

end EdgeNet

end
-- ==== Proof.EdgeRows.lean ====
/-
  The two per-edge networks, one edge at a time.

  For an edge with source features `xr`, destination features `xc` and edge features `ea` (128 numbers each):
      the new edge features are   dense eW2 eb2 (softplus (dense eW1 eb1 [xr | xc | ea])),
      the message is              dense nW2 nb2 (softplus (dense nW1 nb1 [xr | new edge features])),
  softplus applied entry by entry, `[· | ·]` rows laid end to end.  Every edge is treated alone, so an array of
  edges is mapped row by row; `edgeRows` and `msgRows` say so for any number of rows, which is what lets a block of
  2560 edges and the whole array of 640000 edges be read through the same two definitions.
-/
import proofs.«152261_j74637941670346_1_alg».proof.Proof.LibRowOps
import proofs.«152261_j74637941670346_1_alg».proof.Proof.LibSoftplus

noncomputable section

open scoped BigOperators

namespace EdgeNet

open Idealize.ShloMosaic Idealize.ShloMosaic.ValueIdx RowOps

/-- A matrix and a vector of extended reals over the literal rank-2 and rank-1 index types. -/
abbrev Mat (r c : ℕ) : Type := (⟨2, ![r, c]⟩ : Shape).Idx → EReal
abbrev Vec1 (n : ℕ) : Type := (⟨1, ![n]⟩ : Shape).Idx → EReal

/-- The new features of one edge. -/
def edgeRow (eW1 : Mat 384 128) (eb1 : Vec1 128) (eW2 : Mat 128 128) (eb2 : Vec1 128)
    (xr xc ea : Fin 128 → EReal) : Fin 128 → EReal :=
  dense eW2 eb2 (fun k => softplus (dense eW1 eb1 (cat3 384 xr xc ea) k))

/-- The message one edge sends, from its source features and its new edge features. -/
def msgRow (nW1 : Mat 256 128) (nb1 : Vec1 128) (nW2 : Mat 128 128) (nb2 : Vec1 128)
    (xr en : Fin 128 → EReal) : Fin 128 → EReal :=
  dense nW2 nb2 (fun k => softplus (dense nW1 nb1 (cat2 256 xr en) k))

/-- The new edge features of `R` edges: row `n` of the result from row `n` of each input. -/
def edgeRows {R : ℕ} (eW1 : Mat 384 128) (eb1 : Vec1 128) (eW2 : Mat 128 128) (eb2 : Vec1 128)
    (xr xc ea : Mat R 128) : Mat R 128 :=
  fun i => edgeRow eW1 eb1 eW2 eb2 (fun k => xr (ix2 (i 0) k)) (fun k => xc (ix2 (i 0) k)) (fun k => ea (ix2 (i 0) k)) (i 1)

/-- The messages of `R` edges. -/
def msgRows {R : ℕ} (nW1 : Mat 256 128) (nb1 : Vec1 128) (nW2 : Mat 128 128) (nb2 : Vec1 128)
    (xr en : Mat R 128) : Mat R 128 :=
  fun i => msgRow nW1 nb1 nW2 nb2 (fun k => xr (ix2 (i 0) k)) (fun k => en (ix2 (i 0) k)) (i 1)

theorem edgeRows_apply {R : ℕ} (eW1 : Mat 384 128) (eb1 : Vec1 128) (eW2 : Mat 128 128) (eb2 : Vec1 128)
    (xr xc ea : Mat R 128) (n : Fin R) (h : Fin 128) :
    edgeRows eW1 eb1 eW2 eb2 xr xc ea (ix2 n h)
      = edgeRow eW1 eb1 eW2 eb2 (fun k => xr (ix2 n k)) (fun k => xc (ix2 n k)) (fun k => ea (ix2 n k)) h := rfl

theorem msgRows_apply {R : ℕ} (nW1 : Mat 256 128) (nb1 : Vec1 128) (nW2 : Mat 128 128) (nb2 : Vec1 128)
    (xr en : Mat R 128) (n : Fin R) (h : Fin 128) :
    msgRows nW1 nb1 nW2 nb2 xr en (ix2 n h)
      = msgRow nW1 nb1 nW2 nb2 (fun k => xr (ix2 n k)) (fun k => en (ix2 n k)) h := rfl

/-- Rows are independent: if row `n` of each block is row `N` of the corresponding array, row `n` of the block's
    new edge features is row `N` of the array's. -/
theorem edgeRows_block {R R' : ℕ} (eW1 : Mat 384 128) (eb1 : Vec1 128) (eW2 : Mat 128 128) (eb2 : Vec1 128)
    (xr' xc' ea' : Mat R' 128) (xr xc ea : Mat R 128) (n : Fin R') (N : Fin R)
    (hr : ∀ k, xr' (ix2 n k) = xr (ix2 N k)) (hc : ∀ k, xc' (ix2 n k) = xc (ix2 N k)) (he : ∀ k, ea' (ix2 n k) = ea (ix2 N k))
    (h : Fin 128) :
    edgeRows eW1 eb1 eW2 eb2 xr' xc' ea' (ix2 n h) = edgeRows eW1 eb1 eW2 eb2 xr xc ea (ix2 N h) := by
  rw [edgeRows_apply, edgeRows_apply, funext hr, funext hc, funext he]

/-- The same for the messages. -/
theorem msgRows_block {R R' : ℕ} (nW1 : Mat 256 128) (nb1 : Vec1 128) (nW2 : Mat 128 128) (nb2 : Vec1 128)
    (xr' en' : Mat R' 128) (xr en : Mat R 128) (n : Fin R') (N : Fin R)
    (hr : ∀ k, xr' (ix2 n k) = xr (ix2 N k)) (hn : ∀ k, en' (ix2 n k) = en (ix2 N k)) (h : Fin 128) :
    msgRows nW1 nb1 nW2 nb2 xr' en' (ix2 n h) = msgRows nW1 nb1 nW2 nb2 xr en (ix2 N h) := by
  rw [msgRows_apply, msgRows_apply, funext hr, funext hn]

/-- A bias held as a 1 × H array, read as a vector. -/
def rowVec {H : ℕ} (b : (⟨2, ![1, H]⟩ : Shape).Idx → EReal) : Vec1 H := fun j => b (ix2 (0 : Fin 1) (j 0))

/-- A vector recast as a 1 × H array and read back as a vector is itself. -/
theorem rowVec_shapeCast {H : ℕ} (b : Vec1 H) (hsc : (⟨1, ![H]⟩ : Shape).ShapeCasts ⟨2, ![1, H]⟩) :
    rowVec (shapeCast ⟨2, ![1, H]⟩ b hsc) = b := by
  funext j
  obtain ⟨h, rfl⟩ : ∃ h : Fin H, j = ix1 h := ⟨j 0, eq_ix1 j⟩
  exact shapeCast_a_1a_apply b hsc (0 : Fin 1) h

/-- On the extended reals a change of float format changes nothing. -/
theorem truncf_ideal {s : Shape} {φ ψ : FTy} (a : FVec Ideal s φ) (h : ψ.bits < φ.bits) :
    (truncf ψ a h : FVec Ideal s ψ) = a := rfl

/-- A kernel's dense layer whose two operands arrive already narrowed and whose bias arrives as a 1 × H array:
    the product into the zero splat plus the bias row broadcast down the rows, at `(n, h)`. -/
theorem dense_narrow_apply {R K H : ℕ} (d : DotDims ⟨2, ![R, K]⟩ ⟨2, ![K, H]⟩ ⟨2, ![R, H]⟩) (hd : d = DotDims.plain R K H)
    (y : FVec Ideal ⟨2, ![R, K]⟩ .bf16) (W : FVec Ideal ⟨2, ![K, H]⟩ .bf16) (b : FVec Ideal ⟨2, ![1, H]⟩ .f32)
    (hbc : (⟨2, ![1, H]⟩ : Shape).Broadcasts ⟨2, ![R, H]⟩) (n : Fin R) (h : Fin H) :
    addf (matmul d none y W (constant ⟨2, ![R, H]⟩ .f32 0x00000000#32)) (broadcastTo ⟨2, ![R, H]⟩ b hbc) (ix2 n h)
      = dense W (rowVec b) (fun k => y (ix2 n k)) h := by
  show matmul d none y W (constant ⟨2, ![R, H]⟩ .f32 0x00000000#32) (ix2 n h) + broadcastTo ⟨2, ![R, H]⟩ b hbc (ix2 n h) = _
  rw [matmul_plain_apply d hd, broadcastTo_1b_ab_apply]
  rfl

end EdgeNet

end
-- ==== Proof.KernelRows.lean ====
/-
  What the kernel body stores for one block of 2560 edges, read row by row.

  The body's two stored values are, entry by entry, the new edge features and the messages of the block's edges:
  the concatenations, the two matrix products into a zero accumulator, the bias rows and the guarded softplus are
  exactly the row-level dense layers and softplus of the specification, once the format changes (the identity on
  the extended reals) and the same-shape casts are dropped.
-/
import proofs.«152261_j74637941670346_1_alg».proof.Proof.Gen.KernelIdeal.Skeleton
import proofs.«152261_j74637941670346_1_alg».proof.Proof.EdgeRows

noncomputable section

namespace Cert.KernelIdeal.Rows

open Cert.KernelIdeal Cert.KernelIdeal.Gen Idealize.ShloMosaic Idealize.ShloMosaic.ValueIdx RowOps EdgeNet

/-- The three contractions are plain matrix products: rows against columns. -/
theorem d384_plain : dot_S2560x384_S384x128_S2560x128_1_0_0_1_n_n = DotDims.plain 2560 384 128 := rfl
theorem d128_plain : dot_S2560x128_S128x128_S2560x128_1_0_0_1_n_n = DotDims.plain 2560 128 128 := rfl
theorem d256_plain : dot_S2560x256_S256x128_S2560x128_1_0_0_1_n_n = DotDims.plain 2560 256 128 := rfl

/-- The narrowed source block is the source block. -/
theorem narrow_src (x0 : Vec Ideal S2560x128 .f32) : k0_pay2 (F := Ideal) x0 = x0 := by
  unfold k0_pay2
  simp only [shapeCast_self, truncf_ideal]

/-- The first stored value at `(n, h)`: the new features of the block's edge `n`. -/
theorem edge_payload_apply (x0 x1 x2 : Vec Ideal S2560x128 .f32) (x3 : Vec Ideal S384x128 .bf16) (x4 : Vec Ideal S1x128 .f32)
    (x5 : Vec Ideal S128x128 .bf16) (x6 : Vec Ideal S1x128 .f32) (n : Fin 2560) (h : Fin 128) :
    k0_pay3 (F := Ideal) x0 x1 x2 x3 x4 x5 x6 (ix2 n h)
      = edgeRow x3 (rowVec x4) x5 (rowVec x6) (fun k => x0 (ix2 n k)) (fun k => x1 (ix2 n k)) (fun k => x2 (ix2 n k)) h := by
  unfold k0_pay3 k0_pay2
  simp only [shapeCast_self, truncf_ideal]
  refine (dense_narrow_apply _ d128_plain _ x5 x6 _ n h).trans ?_
  unfold edgeRow
  refine congrArg (fun f => dense x5 (rowVec x6) f h) (funext fun k => ?_)
  refine (softplus_kernel_apply _ (ix2 n k)).trans (congrArg softplus ?_)
  refine (dense_narrow_apply _ d384_plain _ x3 x4 _ n k).trans ?_
  refine congrArg (fun f => dense x3 (rowVec x4) f k) (funext fun j => ?_)
  rw [shapeCast_self x0, shapeCast_self x1]
  exact cat3_apply (R := 2560) (A := 128) (B := 128) (D := 128) (C := 384) _ _ _ _ rfl n j

/-- The second stored value at `(n, h)`, from the narrowed source block `s` and the first stored value `e`:
    the message of the block's edge `n`. -/
theorem msg_payload_apply (s : FVec Ideal S2560x128 .bf16) (e : FVec Ideal S2560x128 .f32) (x7 : Vec Ideal S256x128 .bf16)
    (x8 : Vec Ideal S1x128 .f32) (x9 : Vec Ideal S128x128 .bf16) (x10 : Vec Ideal S1x128 .f32) (n : Fin 2560) (h : Fin 128) :
    k0_pay1 (F := Ideal) s e x7 x8 x9 x10 (ix2 n h)
      = msgRow x7 (rowVec x8) x9 (rowVec x10) (fun k => s (ix2 n k)) (fun k => e (ix2 n k)) h := by
  unfold k0_pay1
  simp only [shapeCast_self, truncf_ideal]
  refine (dense_narrow_apply _ d128_plain _ x9 x10 _ n h).trans ?_
  unfold msgRow
  refine congrArg (fun f => dense x9 (rowVec x10) f h) (funext fun k => ?_)
  refine (softplus_kernel_apply _ (ix2 n k)).trans (congrArg softplus ?_)
  refine (dense_narrow_apply _ d256_plain _ x7 x8 _ n k).trans ?_
  refine congrArg (fun f => dense x7 (rowVec x8) f k) (funext fun j => ?_)
  exact cat2_apply (R := 2560) (A := 128) (B := 128) (C := 256) _ _ _ rfl n j

/-- The first stored value is the block's new edge features. -/
theorem edge_block (x0 x1 x2 : Vec Ideal S2560x128 .f32) (x3 : Vec Ideal S384x128 .bf16) (x4 : Vec Ideal S1x128 .f32)
    (x5 : Vec Ideal S128x128 .bf16) (x6 : Vec Ideal S1x128 .f32) :
    k0_pay3 (F := Ideal) x0 x1 x2 x3 x4 x5 x6 = edgeRows x3 (rowVec x4) x5 (rowVec x6) x0 x1 x2 := by
  funext i
  obtain ⟨n, h, rfl⟩ : ∃ (n : Fin 2560) (h : Fin 128), i = ix2 n h := ⟨i 0, i 1, eq_ix2 i⟩
  exact edge_payload_apply x0 x1 x2 x3 x4 x5 x6 n h

/-- The second stored value is the block's messages. -/
theorem msg_block (x0 x1 x2 : Vec Ideal S2560x128 .f32) (x3 : Vec Ideal S384x128 .bf16) (x4 : Vec Ideal S1x128 .f32)
    (x5 : Vec Ideal S128x128 .bf16) (x6 : Vec Ideal S1x128 .f32) (x7 : Vec Ideal S256x128 .bf16) (x8 : Vec Ideal S1x128 .f32)
    (x9 : Vec Ideal S128x128 .bf16) (x10 : Vec Ideal S1x128 .f32) :
    k0_pay1 (F := Ideal) (k0_pay2 x0) (k0_pay3 x0 x1 x2 x3 x4 x5 x6) x7 x8 x9 x10
      = msgRows x7 (rowVec x8) x9 (rowVec x10) x0 (edgeRows x3 (rowVec x4) x5 (rowVec x6) x0 x1 x2) := by
  rw [narrow_src, edge_block]
  funext i
  obtain ⟨n, h, rfl⟩ : ∃ (n : Fin 2560) (h : Fin 128), i = ix2 n h := ⟨i 0, i 1, eq_ix2 i⟩
  exact msg_payload_apply _ _ x7 x8 x9 x10 n h

end Cert.KernelIdeal.Rows

end
-- ==== Proof.KernelArrays.lean ====
/-
  From blocks to arrays: what the two output arrays hold after the kernel's region.

  The grid has 250 points; point `t` reads rows `2560 t … 2560 t + 2559` of the three per-edge arrays (source
  features, destination features, edge features), reads the four weight matrices and four bias rows whole, and
  writes rows `2560 t … 2560 t + 2559` of the two results.  Because each edge is treated alone, what a point writes
  is the corresponding block of ONE function of the whole arrays — the new edge features `edgeRows`, the messages
  `msgRows` — and the 250 blocks cover the 640000 rows, so the arrays end holding those functions.
-/
import proofs.«152261_j74637941670346_1_alg».proof.Proof.Gen.KernelIdeal.Frame
import proofs.«152261_j74637941670346_1_alg».proof.Proof.KernelRows
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx RowOps EdgeNet
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The per-edge windows (three inputs, two outputs) all sit at block row `t`, block column 0, at point `t`. -/
theorem idx_edge : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weight and bias windows sit at block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The input blocks as parts of their arrays -/

/-- Window 0's block at point `t` is rows `2560 t … 2560 t + 2559` of its array. -/
theorem blk0_apply (c : Dev nD) (t : Fin cfg0.N) (n : Fin 2560) (N : Fin 640000) (hN : N.val = t.val * 2560 + n.val) (k : Fin 128) :
    (iblk m c 0 t : Vec Ideal S2560x128 .f32) (ix2 n k) = (V m c main_v10 : Mat 640000 128) (ix2 N k) := by
  obtain ⟨b00, b01, b10, b11, b20, b21, b110, b111, b120, b121⟩ := idx_edge t
  unfold iblk
  rw [View.read_apply]
  show V m c main_v10 _ = V m c main_v10 _
  refine congrArg (V m c main_v10) (funext fun a => Fin.ext ?_)
  match a with
  | ⟨0, _⟩ => show win0_0.index t (0 : Fin 2) * 2560 + 1 * n.val = N.val; rw [b00, hN]; omega
  | ⟨1, _⟩ => show win0_0.index t (1 : Fin 2) * 128 + 1 * k.val = k.val; rw [b01]; omega

/-- Window 1's block at point `t` is rows `2560 t … 2560 t + 2559` of its array. -/
theorem blk1_apply (c : Dev nD) (t : Fin cfg0.N) (n : Fin 2560) (N : Fin 640000) (hN : N.val = t.val * 2560 + n.val) (k : Fin 128) :
    (iblk m c 1 t : Vec Ideal S2560x128 .f32) (ix2 n k) = (V m c main_v17 : Mat 640000 128) (ix2 N k) := by
  obtain ⟨b00, b01, b10, b11, b20, b21, b110, b111, b120, b121⟩ := idx_edge t
  unfold iblk
  rw [View.read_apply]
  show V m c main_v17 _ = V m c main_v17 _
  refine congrArg (V m c main_v17) (funext fun a => Fin.ext ?_)
  match a with
  | ⟨0, _⟩ => show win0_1.index t (0 : Fin 2) * 2560 + 1 * n.val = N.val; rw [b10, hN]; omega
  | ⟨1, _⟩ => show win0_1.index t (1 : Fin 2) * 128 + 1 * k.val = k.val; rw [b11]; omega

/-- Window 2's block at point `t` is rows `2560 t … 2560 t + 2559` of its array. -/
theorem blk2_apply (c : Dev nD) (t : Fin cfg0.N) (n : Fin 2560) (N : Fin 640000) (hN : N.val = t.val * 2560 + n.val) (k : Fin 128) :
    (iblk m c 2 t : Vec Ideal S2560x128 .f32) (ix2 n k) = (V m c main_arg2 : Mat 640000 128) (ix2 N k) := by
  obtain ⟨b00, b01, b10, b11, b20, b21, b110, b111, b120, b121⟩ := idx_edge t
  unfold iblk
  rw [View.read_apply]
  show V m c main_arg2 _ = V m c main_arg2 _
  refine congrArg (V m c main_arg2) (funext fun a => Fin.ext ?_)
  match a with
  | ⟨0, _⟩ => show win0_2.index t (0 : Fin 2) * 2560 + 1 * n.val = N.val; rw [b20, hN]; omega
  | ⟨1, _⟩ => show win0_2.index t (1 : Fin 2) * 128 + 1 * k.val = k.val; rw [b21]; omega

/-- Window 3 stages the whole of its array at every point. -/
theorem blk3_eq (c : Dev nD) (t : Fin cfg0.N) : (iblk m c 3 t : Vec Ideal S384x128 .bf16) = V m c main_v18 := by
  obtain ⟨a30, a31, a40, a41, a50, a51, a60, a61, a70, a71, a80, a81, a90, a91, a100, a101⟩ := idx_whole t
  funext y
  unfold iblk
  rw [View.read_apply]
  show V m c main_v18 _ = V m c main_v18 y
  refine congrArg (V m c main_v18) (funext fun a => Fin.ext ?_)
  match a with
  | ⟨0, _⟩ => show win0_3.index t (0 : Fin 2) * 384 + 1 * (y 0).val = (y 0).val; rw [a30]; omega
  | ⟨1, _⟩ => show win0_3.index t (1 : Fin 2) * 128 + 1 * (y 1).val = (y 1).val; rw [a31]; omega

/-- Window 4 stages the whole of its array at every point. -/
theorem blk4_eq (c : Dev nD) (t : Fin cfg0.N) : (iblk m c 4 t : Vec Ideal S1x128 .f32) = V m c main_v22 := by
  obtain ⟨a30, a31, a40, a41, a50, a51, a60, a61, a70, a71, a80, a81, a90, a91, a100, a101⟩ := idx_whole t
  funext y
  unfold iblk
  rw [View.read_apply]
  show V m c main_v22 _ = V m c main_v22 y
  refine congrArg (V m c main_v22) (funext fun a => Fin.ext ?_)
  match a with
  | ⟨0, _⟩ => show win0_4.index t (0 : Fin 2) * 1 + 1 * (y 0).val = (y 0).val; rw [a40]; omega
  | ⟨1, _⟩ => show win0_4.index t (1 : Fin 2) * 128 + 1 * (y 1).val = (y 1).val; rw [a41]; omega

/-- Window 5 stages the whole of its array at every point. -/
theorem blk5_eq (c : Dev nD) (t : Fin cfg0.N) : (iblk m c 5 t : Vec Ideal S128x128 .bf16) = V m c main_v19 := by
  obtain ⟨a30, a31, a40, a41, a50, a51, a60, a61, a70, a71, a80, a81, a90, a91, a100, a101⟩ := idx_whole t
  funext y
  unfold iblk
  rw [View.read_apply]
  show V m c main_v19 _ = V m c main_v19 y
  refine congrArg (V m c main_v19) (funext fun a => Fin.ext ?_)
  match a with
  | ⟨0, _⟩ => show win0_5.index t (0 : Fin 2) * 128 + 1 * (y 0).val = (y 0).val; rw [a50]; omega
  | ⟨1, _⟩ => show win0_5.index t (1 : Fin 2) * 128 + 1 * (y 1).val = (y 1).val; rw [a51]; omega

/-- Window 6 stages the whole of its array at every point. -/
theorem blk6_eq (c : Dev nD) (t : Fin cfg0.N) : (iblk m c 6 t : Vec Ideal S1x128 .f32) = V m c main_v23 := by
  obtain ⟨a30, a31, a40, a41, a50, a51, a60, a61, a70, a71, a80, a81, a90, a91, a100, a101⟩ := idx_whole t
  funext y
  unfold iblk
  rw [View.read_apply]
  show V m c main_v23 _ = V m c main_v23 y
  refine congrArg (V m c main_v23) (funext fun a => Fin.ext ?_)
  match a with
  | ⟨0, _⟩ => show win0_6.index t (0 : Fin 2) * 1 + 1 * (y 0).val = (y 0).val; rw [a60]; omega
  | ⟨1, _⟩ => show win0_6.index t (1 : Fin 2) * 128 + 1 * (y 1).val = (y 1).val; rw [a61]; omega

/-- Window 7 stages the whole of its array at every point. -/
theorem blk7_eq (c : Dev nD) (t : Fin cfg0.N) : (iblk m c 7 t : Vec Ideal S256x128 .bf16) = V m c main_v20 := by
  obtain ⟨a30, a31, a40, a41, a50, a51, a60, a61, a70, a71, a80, a81, a90, a91, a100, a101⟩ := idx_whole t
  funext y
  unfold iblk
  rw [View.read_apply]
  show V m c main_v20 _ = V m c main_v20 y
  refine congrArg (V m c main_v20) (funext fun a => Fin.ext ?_)
  match a with
  | ⟨0, _⟩ => show win0_7.index t (0 : Fin 2) * 256 + 1 * (y 0).val = (y 0).val; rw [a70]; omega
  | ⟨1, _⟩ => show win0_7.index t (1 : Fin 2) * 128 + 1 * (y 1).val = (y 1).val; rw [a71]; omega

/-- Window 8 stages the whole of its array at every point. -/
theorem blk8_eq (c : Dev nD) (t : Fin cfg0.N) : (iblk m c 8 t : Vec Ideal S1x128 .f32) = V m c main_v24 := by
  obtain ⟨a30, a31, a40, a41, a50, a51, a60, a61, a70, a71, a80, a81, a90, a91, a100, a101⟩ := idx_whole t
  funext y
  unfold iblk
  rw [View.read_apply]
  show V m c main_v24 _ = V m c main_v24 y
  refine congrArg (V m c main_v24) (funext fun a => Fin.ext ?_)
  match a with
  | ⟨0, _⟩ => show win0_8.index t (0 : Fin 2) * 1 + 1 * (y 0).val = (y 0).val; rw [a80]; omega
  | ⟨1, _⟩ => show win0_8.index t (1 : Fin 2) * 128 + 1 * (y 1).val = (y 1).val; rw [a81]; omega

/-- Window 9 stages the whole of its array at every point. -/
theorem blk9_eq (c : Dev nD) (t : Fin cfg0.N) : (iblk m c 9 t : Vec Ideal S128x128 .bf16) = V m c main_v21 := by
  obtain ⟨a30, a31, a40, a41, a50, a51, a60, a61, a70, a71, a80, a81, a90, a91, a100, a101⟩ := idx_whole t
  funext y
  unfold iblk
  rw [View.read_apply]
  show V m c main_v21 _ = V m c main_v21 y
  refine congrArg (V m c main_v21) (funext fun a => Fin.ext ?_)
  match a with
  | ⟨0, _⟩ => show win0_9.index t (0 : Fin 2) * 128 + 1 * (y 0).val = (y 0).val; rw [a90]; omega
  | ⟨1, _⟩ => show win0_9.index t (1 : Fin 2) * 128 + 1 * (y 1).val = (y 1).val; rw [a91]; omega

/-- Window 10 stages the whole of its array at every point. -/
theorem blk10_eq (c : Dev nD) (t : Fin cfg0.N) : (iblk m c 10 t : Vec Ideal S1x128 .f32) = V m c main_v25 := by
  obtain ⟨a30, a31, a40, a41, a50, a51, a60, a61, a70, a71, a80, a81, a90, a91, a100, a101⟩ := idx_whole t
  funext y
  unfold iblk
  rw [View.read_apply]
  show V m c main_v25 _ = V m c main_v25 y
  refine congrArg (V m c main_v25) (funext fun a => Fin.ext ?_)
  match a with
  | ⟨0, _⟩ => show win0_10.index t (0 : Fin 2) * 1 + 1 * (y 0).val = (y 0).val; rw [a100]; omega
  | ⟨1, _⟩ => show win0_10.index t (1 : Fin 2) * 128 + 1 * (y 1).val = (y 1).val; rw [a101]; omega

/-! ## The two results as functions of the whole arrays the region finds -/

/-- The new edge features of all 640000 edges, from the arrays as the region finds them. -/
abbrev newEdge (c : Dev nD) : Mat 640000 128 :=
  edgeRows (V m c main_v18) (rowVec (V m c main_v22)) (V m c main_v19) (rowVec (V m c main_v23))
    (V m c main_v10) (V m c main_v17) (V m c main_arg2)

/-- The messages of all 640000 edges. -/
abbrev messages (c : Dev nD) : Mat 640000 128 :=
  msgRows (V m c main_v20) (rowVec (V m c main_v24)) (V m c main_v21) (rowVec (V m c main_v25))
    (V m c main_v10) (newEdge m c)

/-! ## Output window 11: the new edge features -/

/-- An index of the array is in point `t`'s block of window 11 iff each coordinate is in the block's range. -/
theorem mem_blk11 (t : Fin cfg0.N) (i : S640000x128.Idx) :
    i ∈ ((cfg0.win 11).blk t).view.set ↔ ∀ a : Fin 2, win0_11.index t a * S2560x128.size a ≤ (i a).val ∧ (i a).val < win0_11.index t a * S2560x128.size a + S2560x128.size a := by
  show i ∈ ((View.whole main_v26_0).slice (win0_11.rect t)).set ↔ _
  rw [View.set_slice_whole, Rect.mem_set_unit]
  exact Iff.rfl

/-- Every row of the array lies in the block of the point `row / 2560`. -/
theorem cover11 (i : S640000x128.Idx) : ∃ t : Fin cfg0.N, (cfg0.win 11).flush t = true ∧ i ∈ ((cfg0.win 11).blk t).view.set := by
  have hi0 : (i 0).val < 640000 := (i 0).isLt
  have hi1 : (i 1).val < 128 := (i 1).isLt
  have hN : cfg0.N = 250 := N_0
  have ht : (i 0).val / 2560 < cfg0.N := by rw [hN]; omega
  obtain ⟨b00, b01, b10, b11, b20, b21, b110, b111, b120, b121⟩ := idx_edge ⟨(i 0).val / 2560, ht⟩
  refine ⟨⟨(i 0).val / 2560, ht⟩, flush0_11 _, ?_⟩
  rw [mem_blk11]
  intro a
  match a with
  | ⟨0, _⟩ =>
    show win0_11.index ⟨(i 0).val / 2560, ht⟩ (0 : Fin 2) * 2560 ≤ (i 0).val ∧ (i 0).val < win0_11.index ⟨(i 0).val / 2560, ht⟩ (0 : Fin 2) * 2560 + 2560
    rw [b110]
    show (i 0).val / 2560 * 2560 ≤ (i 0).val ∧ (i 0).val < (i 0).val / 2560 * 2560 + 2560
    omega
  | ⟨1, _⟩ =>
    show win0_11.index ⟨(i 0).val / 2560, ht⟩ (1 : Fin 2) * 128 ≤ (i 1).val ∧ (i 1).val < win0_11.index ⟨(i 0).val / 2560, ht⟩ (1 : Fin 2) * 128 + 128
    rw [b111]
    omega

/-- Where a block's entry `(n, h)` of window 11 sits in the array: row `2560 t + n`. -/
theorem emb11 (t : Fin cfg0.N) (n : Fin 2560) (N : Fin 640000) (hN : N.val = t.val * 2560 + n.val) (h : Fin 128) :
    ((cfg0.win 11).blk t).view.emb (ix2 n h) = (ix2 N h : S640000x128.Idx) := by
  obtain ⟨b00, b01, b10, b11, b20, b21, b110, b111, b120, b121⟩ := idx_edge t
  funext a
  apply Fin.ext
  match a with
  | ⟨0, _⟩ => show win0_11.index t (0 : Fin 2) * 2560 + 1 * n.val = N.val; rw [b110, hN]; omega
  | ⟨1, _⟩ => show win0_11.index t (1 : Fin 2) * 128 + 1 * h.val = h.val; rw [b111]; omega

/-- What point `t` writes back through window 11 is block `t` of the new edge features. -/
theorem flushed11_eq (c : Dev nD) (t : Fin cfg0.N) :
    (dats m 0 c).flushed 11 t = ((cfg0.win 11).blk t).view.read (Elt Ideal) (newEdge m c) := by
  show (cfg0.win 11).cut (grid0.coords t) ((dats m 0 c).after 11 t) = _
  rw [after0_11]
  unfold out0_11
  rw [View.canon_unit_zero hz]
  simp only [View.ld_unit_zero (S := S2560x128) hz, View.ld_unit_zero (S := S384x128) hz, View.ld_unit_zero (S := S1x128) hz, View.ld_unit_zero (S := S128x128) hz, View.ld_unit_zero (S := S256x128) hz]
  rw [Rows.edge_block (iblk m c 0 t) (iblk m c 1 t) (iblk m c 2 t) (iblk m c 3 t) (iblk m c 4 t) (iblk m c 5 t) (iblk m c 6 t)]
  rw [blk3_eq m c t, blk4_eq m c t, blk5_eq m c t, blk6_eq m c t]
  funext j
  obtain ⟨n, h, rfl⟩ : ∃ (n : Fin 2560) (h : Fin 128), j = ix2 n h := ⟨j 0, j 1, eq_ix2 j⟩
  have hlt : t.val * 2560 + n.val < 640000 := by
    have ht : t.val < 250 := lt_of_lt_of_eq t.isLt N_0
    have hn : n.val < 2560 := n.isLt
    omega
  show edgeRows (V m c main_v18) (rowVec (V m c main_v22)) (V m c main_v19) (rowVec (V m c main_v23))
      (iblk m c 0 t) (iblk m c 1 t) (iblk m c 2 t) (ix2 n h)
    = newEdge m c (((cfg0.win 11).blk t).view.emb (ix2 n h))
  rw [emb11 t n ⟨t.val * 2560 + n.val, hlt⟩ rfl h]
  exact edgeRows_block _ _ _ _ _ _ _ _ _ _ n ⟨t.val * 2560 + n.val, hlt⟩
    (blk0_apply m c t n _ rfl) (blk1_apply m c t n _ rfl) (blk2_apply m c t n _ rfl) h

/-- So the first result array ends holding the new edge features. -/
theorem final11 (c : Dev nD) : (dats m 0 c).arrAt 11 cfg0.N = newEdge m c :=
  (dats m 0 c).arrAt_eq_of_cover 11 (newEdge m c) (fun t _ => flushed11_eq m c t) cover11

/-! ## Output window 12: the messages -/

/-- An index of the array is in point `t`'s block of window 12 iff each coordinate is in the block's range. -/
theorem mem_blk12 (t : Fin cfg0.N) (i : S640000x128.Idx) :
    i ∈ ((cfg0.win 12).blk t).view.set ↔ ∀ a : Fin 2, win0_12.index t a * S2560x128.size a ≤ (i a).val ∧ (i a).val < win0_12.index t a * S2560x128.size a + S2560x128.size a := by
  show i ∈ ((View.whole main_v26_1).slice (win0_12.rect t)).set ↔ _
  rw [View.set_slice_whole, Rect.mem_set_unit]
  exact Iff.rfl

/-- Every row of the array lies in the block of the point `row / 2560`. -/
theorem cover12 (i : S640000x128.Idx) : ∃ t : Fin cfg0.N, (cfg0.win 12).flush t = true ∧ i ∈ ((cfg0.win 12).blk t).view.set := by
  have hi0 : (i 0).val < 640000 := (i 0).isLt
  have hi1 : (i 1).val < 128 := (i 1).isLt
  have hN : cfg0.N = 250 := N_0
  have ht : (i 0).val / 2560 < cfg0.N := by rw [hN]; omega
  obtain ⟨b00, b01, b10, b11, b20, b21, b110, b111, b120, b121⟩ := idx_edge ⟨(i 0).val / 2560, ht⟩
  refine ⟨⟨(i 0).val / 2560, ht⟩, flush0_12 _, ?_⟩
  rw [mem_blk12]
  intro a
  match a with
  | ⟨0, _⟩ =>
    show win0_12.index ⟨(i 0).val / 2560, ht⟩ (0 : Fin 2) * 2560 ≤ (i 0).val ∧ (i 0).val < win0_12.index ⟨(i 0).val / 2560, ht⟩ (0 : Fin 2) * 2560 + 2560
    rw [b120]
    show (i 0).val / 2560 * 2560 ≤ (i 0).val ∧ (i 0).val < (i 0).val / 2560 * 2560 + 2560
    omega
  | ⟨1, _⟩ =>
    show win0_12.index ⟨(i 0).val / 2560, ht⟩ (1 : Fin 2) * 128 ≤ (i 1).val ∧ (i 1).val < win0_12.index ⟨(i 0).val / 2560, ht⟩ (1 : Fin 2) * 128 + 128
    rw [b121]
    omega

/-- Where a block's entry `(n, h)` of window 12 sits in the array: row `2560 t + n`. -/
theorem emb12 (t : Fin cfg0.N) (n : Fin 2560) (N : Fin 640000) (hN : N.val = t.val * 2560 + n.val) (h : Fin 128) :
    ((cfg0.win 12).blk t).view.emb (ix2 n h) = (ix2 N h : S640000x128.Idx) := by
  obtain ⟨b00, b01, b10, b11, b20, b21, b110, b111, b120, b121⟩ := idx_edge t
  funext a
  apply Fin.ext
  match a with
  | ⟨0, _⟩ => show win0_12.index t (0 : Fin 2) * 2560 + 1 * n.val = N.val; rw [b120, hN]; omega
  | ⟨1, _⟩ => show win0_12.index t (1 : Fin 2) * 128 + 1 * h.val = h.val; rw [b121]; omega

/-- What point `t` writes back through window 12 is block `t` of the messages. -/
theorem flushed12_eq (c : Dev nD) (t : Fin cfg0.N) :
    (dats m 0 c).flushed 12 t = ((cfg0.win 12).blk t).view.read (Elt Ideal) (messages m c) := by
  show (cfg0.win 12).cut (grid0.coords t) ((dats m 0 c).after 12 t) = _
  rw [after0_12]
  unfold out0_12
  rw [View.canon_unit_zero hz]
  simp only [View.ld_unit_zero (S := S2560x128) hz, View.ld_unit_zero (S := S384x128) hz, View.ld_unit_zero (S := S1x128) hz, View.ld_unit_zero (S := S128x128) hz, View.ld_unit_zero (S := S256x128) hz]
  rw [Rows.msg_block (iblk m c 0 t) (iblk m c 1 t) (iblk m c 2 t) (iblk m c 3 t) (iblk m c 4 t) (iblk m c 5 t) (iblk m c 6 t)
    (iblk m c 7 t) (iblk m c 8 t) (iblk m c 9 t) (iblk m c 10 t)]
  rw [blk3_eq m c t, blk4_eq m c t, blk5_eq m c t, blk6_eq m c t, blk7_eq m c t, blk8_eq m c t, blk9_eq m c t, blk10_eq m c t]
  funext j
  obtain ⟨n, h, rfl⟩ : ∃ (n : Fin 2560) (h : Fin 128), j = ix2 n h := ⟨j 0, j 1, eq_ix2 j⟩
  have hlt : t.val * 2560 + n.val < 640000 := by
    have ht : t.val < 250 := lt_of_lt_of_eq t.isLt N_0
    have hn : n.val < 2560 := n.isLt
    omega
  show msgRows (V m c main_v20) (rowVec (V m c main_v24)) (V m c main_v21) (rowVec (V m c main_v25)) (iblk m c 0 t)
      (edgeRows (V m c main_v18) (rowVec (V m c main_v22)) (V m c main_v19) (rowVec (V m c main_v23))
        (iblk m c 0 t) (iblk m c 1 t) (iblk m c 2 t)) (ix2 n h)
    = messages m c (((cfg0.win 12).blk t).view.emb (ix2 n h))
  rw [emb12 t n ⟨t.val * 2560 + n.val, hlt⟩ rfl h]
  exact msgRows_block _ _ _ _ _ _ _ _ n ⟨t.val * 2560 + n.val, hlt⟩ (blk0_apply m c t n _ rfl)
    (fun k => edgeRows_block _ _ _ _ _ _ _ _ _ _ n ⟨t.val * 2560 + n.val, hlt⟩
      (blk0_apply m c t n _ rfl) (blk1_apply m c t n _ rfl) (blk2_apply m c t n _ rfl) k) h

/-- So the second result array ends holding the messages. -/
theorem final12 (c : Dev nD) : (dats m 0 c).arrAt 12 cfg0.N = messages m c :=
  (dats m 0 c).arrAt_eq_of_cover 12 (messages m c) (fun t _ => flushed12_eq m c t) cover12

end Cert.KernelIdeal.Arrays

end
-- ==== Proof.KernelWhole.lean ====
/-
  The kernel's program as a whole: what its two results hold when it ends.

  Before the region the host casts the four weight matrices to the narrow format (nothing, on the extended reals)
  and reshapes the four bias vectors to one-row arrays; so the region's results are the two row-wise networks of
  the ARGUMENT weights and biases, applied to the gathered source rows, the gathered destination rows and the edge
  features.  After the region the host scatter-adds the messages into zeros at the destination indices; that result
  is read through the lines after the region, the messages array being what the region left.
-/
import proofs.«152261_j74637941670346_1_alg».proof.Proof.Gen.KernelIdeal.Frame
import proofs.«152261_j74637941670346_1_alg».proof.Proof.KernelArrays
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.ValueIdx RowOps EdgeNet

variable (m : (ℓ : Loc nD τ sig) → Buf (Elt Ideal) ℓ) (ρ : Dev nD → PrngReg)

/-! ## The weights and biases the region finds are the arguments -/

/-- The edge network's first weight matrix, cast to the narrow format. -/
theorem V_eW1 (c : Dev nD) : (V m c main_v18 : Mat 384 128) = m ((c.tc : Thread nD τ).loc main_arg7) := by
  show StableHlo.after hostOps0 (fun b => m (c, b)) (Proc.devRef .tc main_v18) = _
  after_results
  rfl

/-- The edge network's second weight matrix. -/
theorem V_eW2 (c : Dev nD) : (V m c main_v19 : Mat 128 128) = m ((c.tc : Thread nD τ).loc main_arg9) := by
  show StableHlo.after hostOps0 (fun b => m (c, b)) (Proc.devRef .tc main_v19) = _
  after_results
  rfl

/-- The message network's first weight matrix. -/
theorem V_nW1 (c : Dev nD) : (V m c main_v20 : Mat 256 128) = m ((c.tc : Thread nD τ).loc main_arg3) := by
  show StableHlo.after hostOps0 (fun b => m (c, b)) (Proc.devRef .tc main_v20) = _
  after_results
  rfl

/-- The message network's second weight matrix. -/
theorem V_nW2 (c : Dev nD) : (V m c main_v21 : Mat 128 128) = m ((c.tc : Thread nD τ).loc main_arg5) := by
  show StableHlo.after hostOps0 (fun b => m (c, b)) (Proc.devRef .tc main_v21) = _
  after_results
  rfl

/-- The edge network's first bias, reshaped to one row. -/
theorem V_eb1 (c : Dev nD) : rowVec (V m c main_v22) = m ((c.tc : Thread nD τ).loc main_arg8) := by
  have e : (V m c main_v22 : (⟨2, ![1, 128]⟩ : Shape).Idx → EReal)
      = shapeCast S1x128 (m ((c.tc : Thread nD τ).loc main_arg8)) shapeCasts_S128_S1x128 := by
    show StableHlo.after hostOps0 (fun b => m (c, b)) (Proc.devRef .tc main_v22) = _
    after_results
    rfl
  rw [e]
  exact rowVec_shapeCast _ _

/-- The edge network's second bias. -/
theorem V_eb2 (c : Dev nD) : rowVec (V m c main_v23) = m ((c.tc : Thread nD τ).loc main_arg10) := by
  have e : (V m c main_v23 : (⟨2, ![1, 128]⟩ : Shape).Idx → EReal)
      = shapeCast S1x128 (m ((c.tc : Thread nD τ).loc main_arg10)) shapeCasts_S128_S1x128 := by
    show StableHlo.after hostOps0 (fun b => m (c, b)) (Proc.devRef .tc main_v23) = _
    after_results
    rfl
  rw [e]
  exact rowVec_shapeCast _ _

/-- The message network's first bias. -/
theorem V_nb1 (c : Dev nD) : rowVec (V m c main_v24) = m ((c.tc : Thread nD τ).loc main_arg4) := by
  have e : (V m c main_v24 : (⟨2, ![1, 128]⟩ : Shape).Idx → EReal)
      = shapeCast S1x128 (m ((c.tc : Thread nD τ).loc main_arg4)) shapeCasts_S128_S1x128 := by
    show StableHlo.after hostOps0 (fun b => m (c, b)) (Proc.devRef .tc main_v24) = _
    after_results
    rfl
  rw [e]
  exact rowVec_shapeCast _ _

/-- The message network's second bias. -/
theorem V_nb2 (c : Dev nD) : rowVec (V m c main_v25) = m ((c.tc : Thread nD τ).loc main_arg6) := by
  have e : (V m c main_v25 : (⟨2, ![1, 128]⟩ : Shape).Idx → EReal)
      = shapeCast S1x128 (m ((c.tc : Thread nD τ).loc main_arg6)) shapeCasts_S128_S1x128 := by
    show StableHlo.after hostOps0 (fun b => m (c, b)) (Proc.devRef .tc main_v25) = _
    after_results
    rfl
  rw [e]
  exact rowVec_shapeCast _ _

/-! ## The two float results over the arguments -/

/-- The new edge features over the argument weights, the gathered rows left as the region finds them. -/
abbrev newEdgeOf (c : Dev nD) : Mat 640000 128 :=
  edgeRows (m ((c.tc : Thread nD τ).loc main_arg7)) (m ((c.tc : Thread nD τ).loc main_arg8))
    (m ((c.tc : Thread nD τ).loc main_arg9)) (m ((c.tc : Thread nD τ).loc main_arg10))
    (V m c main_v10) (V m c main_v17) (m ((c.tc : Thread nD τ).loc main_arg2))

/-- The messages over the argument weights. -/
abbrev messagesOf (c : Dev nD) : Mat 640000 128 :=
  msgRows (m ((c.tc : Thread nD τ).loc main_arg3)) (m ((c.tc : Thread nD τ).loc main_arg4))
    (m ((c.tc : Thread nD τ).loc main_arg5)) (m ((c.tc : Thread nD τ).loc main_arg6))
    (V m c main_v10) (newEdgeOf m c)

theorem newEdge_args (c : Dev nD) : Arrays.newEdge m c = newEdgeOf m c := by
  show edgeRows (V m c main_v18) (rowVec (V m c main_v22)) (V m c main_v19) (rowVec (V m c main_v23))
      (V m c main_v10) (V m c main_v17) (V m c main_arg2) = _
  rw [V_eW1 m c, V_eb1 m c, V_eW2 m c, V_eb2 m c, V_main_arg2 m c]

theorem messages_args (c : Dev nD) : Arrays.messages m c = messagesOf m c := by
  show msgRows (V m c main_v20) (rowVec (V m c main_v24)) (V m c main_v21) (rowVec (V m c main_v25))
      (V m c main_v10) (Arrays.newEdge m c) = _
  rw [V_nW1 m c, V_nb1 m c, V_nW2 m c, V_nb2 m c, newEdge_args m c]

/-! ## The scatter-add after the region -/

/-- The node result: the messages scatter-added into zeros at the destination indices. -/
abbrev scattered (c : Dev nD) : (⟨S10000x128, .f32⟩ : BufTy).Contents (Elt Ideal) :=
  Host.scatterAdd scatter_S10000x128_S640000x1_S640000x128_1_0_0_1
    (broadcastInDim S10000x128 ![] bcast_S_S10000x128 (constant (F := Ideal) S_ .f32 0x00000000#32))
    (broadcastInDim S640000x1 ![0] bcast_S640000_S640000x1_0 (V m c main_v3))
    (messagesOf m c)

/-- What the lines after the region leave in the node result's buffer. -/
theorem tail_scattered (c : Dev nD) :
    Pipeline.afterTail₀ cfgs (dats m) 0 (V0 m) [hostOps1] c main_v29 = scattered m c := by
  unfold Pipeline.afterTail₀
  show StableHlo.after hostOps1 _ (Proc.devRef .tc main_v29) = _
  after_results
  have h3 : Pipeline.withArrays (cfgs 0).spec c (V0 m c) (fun w => (dats m 0 c).arrAt w (cfgs 0).N) (Proc.devRef .tc main_v3)
      = V m c main_v3 := Pipeline.withArrays_of_ne _ c _ _ main_v3 (by decide)
  have h12 : Pipeline.withArrays (cfgs 0).spec c (V0 m c) (fun w => (dats m 0 c).arrAt w (cfgs 0).N) (Proc.devRef .tc main_v26_1)
      = messagesOf m c :=
    (Pipeline.withArrays_arr spec0 launch0.win.arr_inj c _ _ 12).trans ((Arrays.final12 m c).trans (messages_args m c))
  rw [h3, h12]

/-! ## The run -/

/-- Every weakly fair execution of the program ends with the node result at the scattered messages, the edge result
    at the new edge features, and the arguments unchanged. -/
theorem run : θ_run defs (onTc (τ := τ) (main (F := Ideal))) ⟨m, fun _ => 0, ρ⟩ fun r => ∀ c : Dev nD,
      r.2.mem ((c.tc : Thread nD τ).loc main_v29) = scattered m c
      ∧ r.2.mem ((c.tc : Thread nD τ).loc main_v26_0) = newEdgeOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨
      ((h c).2 main_v29 (Pipeline.mem_restRefs_of main_v29 (by decide) (by decide))).trans (tail_scattered m c),
      ((h c).1 11).trans ((Arrays.final11 m c).trans (newEdge_args m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Whole

end
-- ==== Proof.RefRows.lean ====
/-
  The reference's two float results, read row by row.

  The reference concatenates the gathered source rows, the gathered destination rows and the edge features, applies a
  dense layer, softplus, a second dense layer (the new edge features); then concatenates the source rows with the new
  edge features and applies the second network the same way (the messages).  Each of its operations acts on every row
  alone, so its two results are the row-wise functions `edgeRows` and `msgRows` of the specification.
-/
import proofs.«152261_j74637941670346_1_alg».proof.Proof.RefRead
import proofs.«152261_j74637941670346_1_alg».proof.Proof.EdgeRows

noncomputable section

namespace Cert.ReferenceIdeal.Rows

open Cert.ReferenceIdeal Cert.ReferenceIdeal.Gen Cert.ReferenceIdeal.ReadP Idealize.ShloMosaic Idealize.ShloMosaic.ValueIdx RowOps EdgeNet

/-- The three contractions are plain matrix products: rows against columns. -/
theorem d384_plain : dot_S640000x384_S384x128_S640000x128_1_0_0_1_n_n = DotDims.plain 640000 384 128 := rfl
theorem d128_plain : dot_S640000x128_S128x128_S640000x128_1_0_0_1_n_n = DotDims.plain 640000 128 128 := rfl
theorem d256_plain : dot_S640000x256_S256x128_S640000x128_1_0_0_1_n_n = DotDims.plain 640000 256 128 := rfl

variable (x0 : (⟨S10000x128, .f32⟩ : BufTy).Contents (Elt Ideal)) (x1 : (⟨S2x640000, .i32⟩ : BufTy).Contents (Elt Ideal)) (x2 : (⟨S640000x128, .f32⟩ : BufTy).Contents (Elt Ideal))
  (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S384x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))

/-- The first softplus call, entry by entry. -/
theorem softplus0_apply (i : S640000x128.Idx) :
    val_main_v23 (F := Ideal) x0 x1 x2 x7 x8 i = softplus (val_main_v22 (F := Ideal) x0 x1 x2 x7 x8 i) := by
  unfold val_main_v23 val_main_call0_v4 val_main_call0_v6 val_main_call0_v11 val_main_call0_v1 val_main_call0_v10
    val_main_call0_v9 val_main_call0_v8 val_main_call0_v7 val_main_call0_v3 val_main_call0_v0 val_main_call0_v2
    val_main_call0_v5 val_main_call0_cst
  generalize val_main_v22 (F := Ideal) x0 x1 x2 x7 x8 = y
  exact softplus_host_apply y _ _ i

/-- The second softplus call, entry by entry. -/
theorem softplus1_apply (i : S640000x128.Idx) :
    val_main_v33 (F := Ideal) x0 x1 x2 x3 x4 x7 x8 x9 x10 i = softplus (val_main_v32 (F := Ideal) x0 x1 x2 x3 x4 x7 x8 x9 x10 i) := by
  unfold val_main_v33 val_main_call1_v4 val_main_call1_v6 val_main_call1_v11 val_main_call1_v1 val_main_call1_v10
    val_main_call1_v9 val_main_call1_v8 val_main_call1_v7 val_main_call1_v3 val_main_call1_v0 val_main_call1_v2
    val_main_call1_v5 val_main_call1_cst
  generalize val_main_v32 (F := Ideal) x0 x1 x2 x3 x4 x7 x8 x9 x10 = y
  exact softplus_host_apply y _ _ i

/-- The reference's new edge features at `(n, h)`: the edge network on edge `n`'s three rows. -/
theorem newEdge_apply (n : Fin 640000) (h : Fin 128) :
    val_main_v27 (F := Ideal) x0 x1 x2 x7 x8 x9 x10 (ix2 n h)
      = edgeRow x7 x8 x9 x10 (fun k => val_main_v10 (F := Ideal) x0 x1 (ix2 n k))
          (fun k => val_main_v17 (F := Ideal) x0 x1 (ix2 n k)) (fun k => x2 (ix2 n k)) h := by
  unfold val_main_v27 val_main_v24 val_main_v26 val_main_v25
  refine (dense_host_apply' _ d128_plain _ x9 x10 _ _ n h).trans ?_
  unfold edgeRow
  refine congrArg (fun f => dense x9 x10 f h) (funext fun k => ?_)
  refine (softplus0_apply x0 x1 x2 x7 x8 (ix2 n k)).trans (congrArg softplus ?_)
  unfold val_main_v22 val_main_v19 val_main_v21 val_main_v20
  refine (dense_host_apply' _ d384_plain _ x7 x8 _ _ n k).trans ?_
  refine congrArg (fun f => dense x7 x8 f k) (funext fun j => ?_)
  unfold val_main_v18
  exact cat3_apply (R := 640000) (A := 128) (B := 128) (D := 128) (C := 384) _ _ _ _ rfl n j

/-- The reference's new edge features are the edge network applied row by row. -/
theorem newEdge_eq :
    val_main_v27 (F := Ideal) x0 x1 x2 x7 x8 x9 x10
      = edgeRows x7 x8 x9 x10 (val_main_v10 (F := Ideal) x0 x1) (val_main_v17 (F := Ideal) x0 x1) x2 := by
  funext i
  obtain ⟨n, h, rfl⟩ : ∃ (n : Fin 640000) (h : Fin 128), i = ix2 n h := ⟨i 0, i 1, eq_ix2 i⟩
  exact newEdge_apply x0 x1 x2 x7 x8 x9 x10 n h

/-- The reference's messages at `(n, h)`: the message network on edge `n`'s source row and new edge features. -/
theorem messages_apply (n : Fin 640000) (h : Fin 128) :
    val_main_v37 (F := Ideal) x0 x1 x2 x3 x4 x5 x6 x7 x8 x9 x10 (ix2 n h)
      = msgRow x3 x4 x5 x6 (fun k => val_main_v10 (F := Ideal) x0 x1 (ix2 n k))
          (fun k => val_main_v27 (F := Ideal) x0 x1 x2 x7 x8 x9 x10 (ix2 n k)) h := by
  unfold val_main_v37 val_main_v34 val_main_v36 val_main_v35
  refine (dense_host_apply' _ d128_plain _ x5 x6 _ _ n h).trans ?_
  unfold msgRow
  refine congrArg (fun f => dense x5 x6 f h) (funext fun k => ?_)
  refine (softplus1_apply x0 x1 x2 x3 x4 x7 x8 x9 x10 (ix2 n k)).trans (congrArg softplus ?_)
  unfold val_main_v32 val_main_v29 val_main_v31 val_main_v30
  refine (dense_host_apply' _ d256_plain _ x3 x4 _ _ n k).trans ?_
  refine congrArg (fun f => dense x3 x4 f k) (funext fun j => ?_)
  unfold val_main_v28
  exact cat2_apply (R := 640000) (A := 128) (B := 128) (C := 256) _ _ _ rfl n j

/-- The reference's messages are the message network applied row by row to the source rows and the new edge features. -/
theorem messages_eq :
    val_main_v37 (F := Ideal) x0 x1 x2 x3 x4 x5 x6 x7 x8 x9 x10
      = msgRows x3 x4 x5 x6 (val_main_v10 (F := Ideal) x0 x1)
          (edgeRows x7 x8 x9 x10 (val_main_v10 (F := Ideal) x0 x1) (val_main_v17 (F := Ideal) x0 x1) x2) := by
  rw [← newEdge_eq]
  funext i
  obtain ⟨n, h, rfl⟩ : ∃ (n : Fin 640000) (h : Fin 128), i = ix2 n h := ⟨i 0, i 1, eq_ix2 i⟩
  exact messages_apply x0 x1 x2 x3 x4 x5 x6 x7 x8 x9 x10 n h

end Cert.ReferenceIdeal.Rows

end
-- ==== Proof.lean ====
/-
  Two message-passing networks on a graph's edges, fused in one kernel, against the plain array program.

  For every edge (row, col) of 640000 edges over 10000 nodes with 128 features:
      new edge features = dense eW2 eb2 (softplus (dense eW1 eb1 [x[row] | x[col] | edge features])),
      message           = dense nW2 nb2 (softplus (dense nW1 nb1 [x[row] | new edge features])),
  and the node result adds each edge's message into row `col` of a zero array.  Both programs gather `x[row]` and
  `x[col]` and scatter-add the messages with the same host operations; they differ only in between, where the
  kernel works on blocks of 2560 edges with narrowed operands and matrix products into a zero accumulator, and the
  reference on whole arrays.  On the extended reals a change of format is the identity, a product into a zero
  accumulator is the plain sum of products, and the softplus guard "a value differs from itself" never fires under
  either reading, so row by row the two programs compute one function; no law that would need finite inputs is used.

  The modules: LibSoftplus (the scalar function and its two array spellings), LibRowOps (dense layers and row
  concatenations read at a row), EdgeRows (the two networks on one edge, and on arrays of edges), KernelRows (what
  the kernel body stores for a block), KernelArrays (the result arrays after the region, from the blocks),
  KernelWhole (the host lines around the region; the kernel program's run), RefRows (the reference's results row by
  row), LibHostLine (a three-operand concatenation in a line of host operations; a line cut in two).  Here: the host lines the two programs share, and the five claims.
-/
import proofs.«152261_j74637941670346_1_alg».proof.Defs
import proofs.«152261_j74637941670346_1_alg».proof.Proof.Gen.Kernel
import proofs.«152261_j74637941670346_1_alg».proof.Proof.Gen.Kernel.Skeleton
import proofs.«152261_j74637941670346_1_alg».proof.Proof.Gen.Kernel.Launch
import proofs.«152261_j74637941670346_1_alg».proof.Proof.Gen.Kernel.Points
import proofs.«152261_j74637941670346_1_alg».proof.Proof.Gen.Kernel.Frame
import proofs.«152261_j74637941670346_1_alg».proof.Proof.Gen.KernelIdeal
import proofs.«152261_j74637941670346_1_alg».proof.Proof.Gen.KernelIdeal.Skeleton
import proofs.«152261_j74637941670346_1_alg».proof.Proof.Gen.KernelIdeal.Launch
import proofs.«152261_j74637941670346_1_alg».proof.Proof.Gen.KernelIdeal.Points
import proofs.«152261_j74637941670346_1_alg».proof.Proof.Gen.KernelIdeal.Frame
import proofs.«152261_j74637941670346_1_alg».proof.Proof.Gen.ReferenceIdeal
import proofs.«152261_j74637941670346_1_alg».proof.Proof.Gen.Pre_finite_inputs
import proofs.«152261_j74637941670346_1_alg».proof.Proof.RefRead
import proofs.«152261_j74637941670346_1_alg».proof.Proof.RefRun
import proofs.«152261_j74637941670346_1_alg».proof.Proof.KernelWhole
import proofs.«152261_j74637941670346_1_alg».proof.Proof.RefRows
import Idealize.ShloMosaic.Adequacy
import Idealize.ShloMosaic.Init
import Idealize.ShloMosaic.Lib.StableHlo.Run

set_option maxRecDepth 16384

noncomputable section

namespace Cert.Proof

open Idealize.ShloMosaic Idealize.ShloMosaic.TcCoe Idealize.SL.Sem Idealize.ShloMosaic.StableHlo EdgeNet

/-! ## The host lines the two programs share -/

section Shared

variable (m : (ℓ : Loc Cert.KernelIdeal.nD Cert.KernelIdeal.τ Cert.KernelIdeal.sig) → Buf (Elt Ideal) ℓ)
  (c : Dev Cert.KernelIdeal.nD)

set_option maxHeartbeats 2000000 in
/-- The gathered source rows `x[row]` the kernel's region finds are the reference's. -/
theorem src_shared : Cert.KernelIdeal.Gen.V m c Cert.KernelIdeal.main_v10
    = Cert.ReferenceIdeal.ReadP.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v10) = _
  after_results_simp
  rfl

set_option maxHeartbeats 2000000 in
/-- The gathered destination rows `x[col]` likewise. -/
theorem dst_shared : Cert.KernelIdeal.Gen.V m c Cert.KernelIdeal.main_v17
    = Cert.ReferenceIdeal.ReadP.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v17) = _
  after_results_simp
  rfl

set_option maxHeartbeats 2000000 in
/-- The destination indices `col` likewise. -/
theorem col_shared : Cert.KernelIdeal.Gen.V m c Cert.KernelIdeal.main_v3
    = Cert.ReferenceIdeal.ReadP.val_main_v3 (F := Ideal) (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v3) = _
  after_results_simp
  rfl

/-- The edge result both programs end with, as a function of the arguments. -/
abbrev edgeOf : Buf (Elt Ideal) ((c.tc : Thread Cert.KernelIdeal.nD Cert.KernelIdeal.τ).loc Cert.KernelIdeal.main_v26_0) :=
  Cert.ReferenceIdeal.ReadP.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- The node result both programs end with. -/
abbrev nodeOf : Buf (Elt Ideal) ((c.tc : Thread Cert.KernelIdeal.nD Cert.KernelIdeal.τ).loc Cert.KernelIdeal.main_v29) :=
  Cert.ReferenceIdeal.ReadP.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- The kernel's new edge features are the reference's. -/
theorem edge_shared : Cert.KernelIdeal.Whole.newEdgeOf m c = edgeOf m c := by
  show _ = Cert.ReferenceIdeal.ReadP.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
  rw [Cert.ReferenceIdeal.Rows.newEdge_eq]
  show edgeRows (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (Cert.KernelIdeal.Gen.V m c Cert.KernelIdeal.main_v10) (Cert.KernelIdeal.Gen.V m c Cert.KernelIdeal.main_v17) (m ((c.tc : Thread Cert.KernelIdeal.nD Cert.KernelIdeal.τ).loc Cert.KernelIdeal.main_arg2)) = _
  rw [src_shared m c, dst_shared m c]

/-- The kernel's node result is the reference's: the same scatter-add of the same messages at the same indices. -/
theorem node_shared : Cert.KernelIdeal.Whole.scattered m c = nodeOf m c := by
  show _ = Cert.ReferenceIdeal.ReadP.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
  unfold Cert.ReferenceIdeal.ReadP.val_main_v40
  rw [Cert.ReferenceIdeal.Rows.messages_eq]
  show Host.scatterAdd Cert.KernelIdeal.scatter_S10000x128_S640000x1_S640000x128_1_0_0_1
      (broadcastInDim Cert.KernelIdeal.S10000x128 ![] Cert.KernelIdeal.Facts₀.bcast_S_S10000x128 (constant (F := Ideal) Cert.KernelIdeal.S_ .f32 0x00000000#32))
      (broadcastInDim Cert.KernelIdeal.S640000x1 ![0] Cert.KernelIdeal.Facts₀.bcast_S640000_S640000x1_0 (Cert.KernelIdeal.Gen.V m c Cert.KernelIdeal.main_v3))
      (msgRows (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Cert.KernelIdeal.Gen.V m c Cert.KernelIdeal.main_v10)
        (edgeRows (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
          (Cert.KernelIdeal.Gen.V m c Cert.KernelIdeal.main_v10) (Cert.KernelIdeal.Gen.V m c Cert.KernelIdeal.main_v17) (m ((c.tc : Thread Cert.KernelIdeal.nD Cert.KernelIdeal.τ).loc Cert.KernelIdeal.main_arg2)))) = _
  rw [src_shared m c, dst_shared m c, col_shared m c]
  rfl

end Shared

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- From memories agreeing on the arguments both programs end with the same node result and the same edge result. -/
theorem algebraic : Cert.algebraic_KernelIdeal_ReferenceIdeal := by
  intro m ρ m' ρ' _ hagree
  refine ⟨fun c => nodeOf m c, fun c => edgeOf m c, ?_, ?_⟩
  · exact (θ_run Cert.KernelIdeal.defs _ _).mono
      (fun r h c => ⟨(h c).1.trans (node_shared m c), (h c).2.1.trans (edge_shared m c), (h c).2.2⟩)
      (Cert.KernelIdeal.Whole.run m ρ)
  · refine (θ_run Cert.ReferenceIdeal.defs _ _).mono (fun r h c => ?_) (Cert.ReferenceIdeal.RunP.run (F := Ideal) m' ρ')
    obtain ⟨e0, e1, e2, e3, e4, e5, e6, e7, e8, e9, e10⟩ := hagree c
    refine ⟨(h c).1.trans ?_, (h c).2.1.trans ?_, (h c).2.2⟩
    · rw [e0, e1, e2, e3, e4, e5, e6, e7, e8, e9, e10]
    · rw [e0, e1, e2, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
